-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x256 : Shape := ⟨3, ![32, 1024, 256]⟩
abbrev S_ : Shape := ⟨0, ![]⟩

class Facts : Prop where
  bcast_S_S32x1024x256 : S_.BroadcastsInDim S32x1024x256 (![] : Fin 0 → Fin S32x1024x256.rank)
  reducesTo_S32x1024x256_S_d0_1_2 : S32x1024x256.ReducesTo [0, 1, 2] S_
  h_S_ : 0 < S_.numel

variable [Facts]

def fn {F : FTy → Type} [FloatOps F] (main_arg0 : FVec F S32x1024x256 .f32) (main_arg1 : FVec F S32x1024x256 .f32) : IVec S_ 1 :=
  let main_v0 : FVec F S32x1024x256 .f32 := Host.absf main_arg0
  let main_cst : FVec F S_ .f32 := constant S_ .f32 0x7F800000#32
  let main_v1 : FVec F S32x1024x256 .f32 := broadcastInDim S32x1024x256 ![] bcast_S_S32x1024x256 main_cst
  let main_v2 : IVec S32x1024x256 1 := cmpf .olt main_v0 main_v1
  let main_c : IVec S_ 1 := constantI S_ 1 1#1
  let main_v3 : IVec S_ 1 := (fun x v => Host.reduce IntOp.andi x v reducesTo_S32x1024x256_S_d0_1_2 h_S_) main_v2 main_c
  let main_v4 : FVec F S32x1024x256 .f32 := Host.absf main_arg1
  let main_cst_0 : FVec F S_ .f32 := constant S_ .f32 0x7F800000#32
  let main_v5 : FVec F S32x1024x256 .f32 := broadcastInDim S32x1024x256 ![] bcast_S_S32x1024x256 main_cst_0
  let main_v6 : IVec S32x1024x256 1 := cmpf .olt main_v4 main_v5
  let main_c_1 : IVec S_ 1 := constantI S_ 1 1#1
  let main_v7 : IVec S_ 1 := (fun x v => Host.reduce IntOp.andi x v reducesTo_S32x1024x256_S_d0_1_2 h_S_) main_v6 main_c_1
  let main_v8 : IVec S_ 1 := andi main_v3 main_v7
  main_v8
-- ==== Kernel.lean ====
abbrev S32x1024x256 : Shape := ⟨3, ![32, 1024, 256]⟩
abbrev S32x1024x1024 : Shape := ⟨3, ![32, 1024, 1024]⟩
abbrev S1x1024x256 : Shape := ⟨3, ![1, 1024, 256]⟩
abbrev S1x512x256 : Shape := ⟨3, ![1, 512, 256]⟩
abbrev S1x512x1024 : Shape := ⟨3, ![1, 512, 1024]⟩
abbrev S1024x256 : Shape := ⟨2, ![1024, 256]⟩
abbrev S512x256 : Shape := ⟨2, ![512, 256]⟩
abbrev S512 : Shape := ⟨1, ![512]⟩
abbrev S512x1 : Shape := ⟨2, ![512, 1]⟩
abbrev S1024 : Shape := ⟨1, ![1024]⟩
abbrev S1024x1 : Shape := ⟨2, ![1024, 1]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x1024, .f32⟩
  | .local _ .vmem, ⟨0, _⟩ => ⟨S1x1024x256, .f32⟩
  | .local _ .vmem, ⟨1, _⟩ => ⟨S1x1024x256, .f32⟩
  | .local _ .vmem, ⟨2, _⟩ => ⟨S1x512x256, .f32⟩
  | .local _ .vmem, ⟨3, _⟩ => ⟨S1x512x256, .f32⟩
  | .local _ .vmem, ⟨4, _⟩ => ⟨S1x512x1024, .f32⟩
  | .local _ .vmem, ⟨5, _⟩ => ⟨S1x512x1024, .f32⟩
  | _, _ => ⟨S32x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  broadcasts_S512x1_S512x256 : S512x1.Broadcasts S512x256
  reduces_S1024x256_S1024 : S1024x256.Reduces [1] S1024
  shapeCasts_S1024_S1024x1 : S1024.ShapeCasts S1024x1
  broadcasts_S1024x1_S1024x256 : S1024x1.Broadcasts S1024x256
  bitsLt_bf16_f32 : FTy.bits .bf16 < FTy.bits .f32
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  dot_S512x256_S1024x256_S512x1024_1_1_0_0_n_n_wf : DotDims.WF S512x256 S1024x256 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S32x1024x256.size a
  hwx0_0 : ∀ i : grid0.Coords, EltTy.bits .f32 = 32 ∨ (Rect.block (s := S32x1024x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x256.size a ≤ S32x1024x256.size a
  hwx0_1 : ∀ i : grid0.Coords, EltTy.bits .f32 = 32 ∨ (Rect.block (s := S32x1024x256) S1x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1024.size a ≤ S32x1024x1024.size a
  hwx0_2 : ∀ i : grid0.Coords, EltTy.bits .f32 = 32 ∨ (Rect.block (s := S32x1024x1024) S1x512x1024.size (cc0_transform_2 i) (hinb0_2 i)).WholeWords (EltTy.packing .f32)

variable [Facts₀]

def dot_S512x256_S1024x256_S512x1024_1_1_0_0_n_n : DotDims S512x256 S1024x256 S512x1024 where
  lhsContracting := [1]
  rhsContracting := [1]
  lhsNonContracting := [0]
  rhsNonContracting := [0]
  lhsBatch := []
  rhsBatch := []
  wf := dot_S512x256_S1024x256_S512x1024_1_1_0_0_n_n_wf

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x1024x256 : Shape := ⟨3, ![32, 1024, 256]⟩
abbrev S_ : Shape := ⟨0, ![]⟩
abbrev S32x1024 : Shape := ⟨2, ![32, 1024]⟩
abbrev S32x1024x1 : Shape := ⟨3, ![32, 1024, 1]⟩
abbrev S32x1024x1024 : Shape := ⟨3, ![32, 1024, 1024]⟩

abbrev nBuf : Space → Nat
  | .hbm => 23
  | .vmem => 0
  | .smem => 0
  | _ => 0

abbrev bufTy : (tb : Table) → Fin (tcTables nBuf tb) → BufTy
  | .hbm, ⟨0, _⟩ => ⟨S32x1024x256, .f32⟩
  | .hbm, ⟨1, _⟩ => ⟨S32x1024x256, .f32⟩
  | .hbm, ⟨2, _⟩ => ⟨S32x1024x256, .f32⟩
  | .hbm, ⟨3, _⟩ => ⟨S_, .f32⟩
  | .hbm, ⟨4, _⟩ => ⟨S32x1024, .f32⟩
  | .hbm, ⟨5, _⟩ => ⟨S32x1024x1, .f32⟩
  | .hbm, ⟨6, _⟩ => ⟨S32x1024x1, .f32⟩
  | .hbm, ⟨7, _⟩ => ⟨S_, .f32⟩
  | .hbm, ⟨8, _⟩ => ⟨S32x1024x1, .f32⟩
  | .hbm, ⟨9, _⟩ => ⟨S32x1024x1, .f32⟩
  | .hbm, ⟨10, _⟩ => ⟨S32x1024x256, .f32⟩
  | .hbm, ⟨11, _⟩ => ⟨S32x1024x256, .f32⟩
  | .hbm, ⟨12, _⟩ => ⟨S32x1024x256, .f32⟩
  | .hbm, ⟨13, _⟩ => ⟨S_, .f32⟩
  | .hbm, ⟨14, _⟩ => ⟨S32x1024, .f32⟩
  | .hbm, ⟨15, _⟩ => ⟨S32x1024x1, .f32⟩
  | .hbm, ⟨16, _⟩ => ⟨S32x1024x1, .f32⟩
  | .hbm, ⟨17, _⟩ => ⟨S_, .f32⟩
  | .hbm, ⟨18, _⟩ => ⟨S32x1024x1, .f32⟩
  | .hbm, ⟨19, _⟩ => ⟨S32x1024x1, .f32⟩
  | .hbm, ⟨20, _⟩ => ⟨S32x1024x256, .f32⟩
  | .hbm, ⟨21, _⟩ => ⟨S32x1024x256, .f32⟩
  | .hbm, ⟨22, _⟩ => ⟨S32x1024x1024, .f32⟩
  | _, _ => ⟨S32x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S32x1024x256_S32x1024_d2 : S32x1024x256.ReducesTo [2] S32x1024
  h_S_ : 0 < S_.numel
  bcast_S32x1024_S32x1024x1_0_1 : S32x1024.BroadcastsInDim S32x1024x1 (![0, 1] : Fin 2 → Fin S32x1024x1.rank)
  bcast_S_S32x1024x1 : S_.BroadcastsInDim S32x1024x1 (![] : Fin 0 → Fin S32x1024x1.rank)
  bcast_S32x1024x1_S32x1024x256_0_1_2 : S32x1024x1.BroadcastsInDim S32x1024x256 (![0, 1, 2] : Fin 3 → Fin S32x1024x256.rank)
  dot_S32x1024x256_S32x1024x256_S32x1024x1024_2_2_1_1_0_0_wf : DotDims.WF S32x1024x256 S32x1024x256 S32x1024x1024 [2] [2] [1] [1] [0] [0]

variable [Facts₀]

def dot_S32x1024x256_S32x1024x256_S32x1024x1024_2_2_1_1_0_0 : DotDims S32x1024x256 S32x1024x256 S32x1024x1024 where
  lhsContracting := [2]
  rhsContracting := [2]
  lhsNonContracting := [1]
  rhsNonContracting := [1]
  lhsBatch := [0]
  rhsBatch := [0]
  wf := dot_S32x1024x256_S32x1024x256_S32x1024x1024_2_2_1_1_0_0_wf

class Facts : Prop extends Facts₀ where

variable [Facts]
-- ==== Proof.LibKeepdims.lean ====
/-
  Layout operations of a sum that keeps its reduced axis, read at an index given by coordinates.

  A row-wise reduction of an `[a, n]` array leaves a vector `[a]`; keeping the reduced axis re-lays it as the column
  `[a, 1]`, and a later row-wise operation broadcasts that column back over the `n` lanes. Here: the column cast read at
  `(i, u)` is the vector at `i`; the column broadcast read at `(p, c)` is the column at `(p, 0)`; and, at the exact
  extended-real reading of floats, the sum along the lanes of an `[a, n]` array at row `p` is the finite sum over
  `k < n` of the entries `(p, k)`.
-/
import Idealize.ShloMosaic.Lib.ValueLayout
import Idealize.ShloMosaic.PureOps.Ideal.Laws

namespace Cert.Lib.Keepdims

open Idealize.ShloMosaic Idealize.ShloMosaic.ValueIdx

variable {α : Type}

/-- An `[a]` vector cast to the column `[a, 1]` reads, at `(i, u)`, the vector at `i`, whatever the unit coordinate
    `u`: both indices have the same row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- On the extended reals the sum along the lanes of an `[a, n]` array, read at row `p`, is `∑ k, v (p, k)`: the
    reduced index with the lane coordinate put back is `(p, k)`. -/
theorem laneSum_apply {a n : ℕ} (v : FVec Ideal ⟨2, ![a, n]⟩ .f32) (hr : (⟨2, ![a, n]⟩ : Shape).Reduces [1] ⟨1, ![a]⟩)
    (hφ : FKind.Formats .f32) (hacc : (0x00000000#32 : BitVec FTy.f32.bits) = FKind.add.neutral .f32 hφ) (p : Fin a) :
    multiReduction .add [1] ⟨1, ![a]⟩ v 0x00000000#32 hr hφ hacc (ix1 p) = ∑ k : Fin n, v (ix2 p k) := by
  refine (Ideal.multiReduction_add_single v 0x00000000#32 hr hφ hacc (ix1 p)).trans ?_
  refine Finset.sum_congr rfl fun k _ => congrArg v ?_
  funext ax
  apply Fin.ext
  match ax with
  | ⟨0, _⟩ => rfl
  | ⟨1, _⟩ => rfl

end Cert.Lib.Keepdims
-- ==== Proof.CosineSpec.lean ====
/-
  The function both programs compute, on the extended reals.

  The inputs are two arrays of 32 batches of 1024 rows of 256 entries: the support rows `s` and the query rows `x`. A
  row `r` is scaled to unit length by dividing each entry by `max (√(∑ k, r k · r k)) ε`, the Euclidean norm clamped
  below by the small constant `ε` (so the zero row stays zero). The result at `(b, t, j)` is the inner product of the
  scaled query row `t` and the scaled support row `j` of batch `b`: the cosine of the angle between the two rows.

  Every operation is the exact one on the extended reals; `ε` is kept as the value of its 32-bit word, the same word
  on both sides, and is never evaluated.
-/
import Idealize.ShloMosaic.PureOps.Ideal
import Idealize.ShloMosaic.Lib.ValueIdx

noncomputable section

namespace Cert.Cosine

open Idealize.ShloMosaic Idealize.ShloMosaic.ValueIdx

/-- The floor under a row's norm: the value of the word both programs write for `1e-10`. -/
def normFloor : EReal := Ideal.ofBits .f32 0x2EDBE6FF#32

/-- A row's Euclidean norm, clamped below by the floor. -/
def clampedNorm {n : ℕ} (row : Fin n → EReal) : EReal := max (Ideal.sqrt (∑ k, row k * row k)) normFloor

/-- Entry `k` of the row scaled by its clamped norm. -/
def unitEntry {n : ℕ} (row : Fin n → EReal) (k : Fin n) : EReal := Ideal.div (row k) (clampedNorm row)

/-- The inner product of two rows, each scaled by its clamped norm. -/
def cosine {n : ℕ} (u v : Fin n → EReal) : EReal := ∑ k, unitEntry u k * unitEntry v k

/-- Row `r` of batch `b` of an array of 32 × 1024 rows of 256 entries. -/
def rowOf (a : (⟨3, ![32, 1024, 256]⟩ : Shape).Idx → EReal) (b : Fin 32) (r : Fin 1024) : Fin 256 → EReal :=
  fun k => a (ix3 b r k)

/-- THE RESULT: at `(b, t, j)` the cosine between query row `t` and support row `j` of batch `b`. -/
def sims (s x : (⟨3, ![32, 1024, 256]⟩ : Shape).Idx → EReal) : (⟨3, ![32, 1024, 1024]⟩ : Shape).Idx → EReal :=
  fun i => cosine (rowOf x (i 0) (i 1)) (rowOf s (i 0) (i 2))

theorem sims_ix3 (s x : (⟨3, ![32, 1024, 256]⟩ : Shape).Idx → EReal) (b : Fin 32) (t j : Fin 1024) :
    sims s x (ix3 b t j) = cosine (rowOf x b t) (rowOf s b j) := rfl

end Cert.Cosine

end
-- ==== Proof.KernelPayload.lean ====
/-
  What the kernel body computes from its two loaded blocks, read at an index.

  At a grid point the body holds a block of 1024 support rows and a block of 512 query rows, 256 entries each. It scales
  every row of both blocks by the row's clamped Euclidean norm (the squares summed along the lanes, the square root, the
  floor, the column broadcast back over the lanes, the quotient), narrows both to the 16-bit format — the identity on the
  extended reals — and contracts the lanes of the two scaled blocks into a zero accumulator. So entry `(p, q)` of the
  512 × 1024 result is `∑ k, x̂ (p, k) · ŝ (q, k)`: the cosine between query row `p` and support row `q` of the blocks.
-/
import proofs.«126760_j31963146616898_1_alg».proof.Proof.Gen.KernelIdeal.Skeleton
import proofs.«126760_j31963146616898_1_alg».proof.Proof.LibKeepdims
import proofs.«126760_j31963146616898_1_alg».proof.Proof.CosineSpec
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx
open Cert.Cosine Cert.Lib.Keepdims

/-! ## A block's rows scaled to unit length -/

/-- The body's scaling of an `[a, 256]` block, read at `(p, k)`: entry `k` of row `p` over that row's clamped norm. The
    column of norms is the lane sum of the squares (a finite sum on the extended reals), re-laid as a column, rooted,
    floored, and broadcast back over the lanes; each of these reads row `p` only. -/
theorem scaled_apply {a : ℕ} (v : FVec Ideal ⟨2, ![a, 256]⟩ .f32)
    (hr : (⟨2, ![a, 256]⟩ : Shape).Reduces [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (hb : (⟨2, ![a, 1]⟩ : Shape).Broadcasts ⟨2, ![a, 256]⟩)
    (p : Fin a) (k : Fin 256) :
    divf v (broadcastTo ⟨2, ![a, 256]⟩
        (maximumf (sqrt (shapeCast ⟨2, ![a, 1]⟩ (multiReduction .add [1] ⟨1, ![a]⟩ (mulf v v) 0x00000000#32 hr hφ hacc) hc))
          (broadcast ⟨2, ![a, 1]⟩ (Scalar.ofBits (F := Ideal) .f32 0x2EDBE6FF#32))) hb) (ix2 p k)
      = unitEntry (fun k => v (ix2 p k)) k := by
  refine congrArg (Ideal.div (v (ix2 p k))) ?_
  refine (broadcastTo_a1_ab_apply _ hb p k).trans ?_
  refine congrArg (fun z => max (Ideal.sqrt z) normFloor) ?_
  refine (shapeCast_a_a1_apply _ hc p 0).trans ?_
  exact laneSum_apply (mulf v v) hr hφ hacc p

/-! ## The contraction of the lanes -/

theorem lhs_axis0 (i : S512x1024.Idx) (q : dot_S512x256_S1024x256_S512x1024_1_1_0_0_n_n.contr.Idx) :
    (dot_S512x256_S1024x256_S512x1024_1_1_0_0_n_n.lhsIdx i q 0).val = (i 0).val := by
  unfold DotDims.lhsIdx
  rw [dif_neg (show ¬(0 : Fin S512x256.rank) ∈ dot_S512x256_S1024x256_S512x1024_1_1_0_0_n_n.lhsBatch by decide), dif_pos (show (0 : Fin S512x256.rank) ∈ dot_S512x256_S1024x256_S512x1024_1_1_0_0_n_n.lhsNonContracting by decide)]
  rfl
theorem lhs_axis1 (i : S512x1024.Idx) (q : dot_S512x256_S1024x256_S512x1024_1_1_0_0_n_n.contr.Idx) :
    (dot_S512x256_S1024x256_S512x1024_1_1_0_0_n_n.lhsIdx i q 1).val = (q ⟨0, by decide⟩).val :=
  dot_S512x256_S1024x256_S512x1024_1_1_0_0_n_n.lhsIdx_val_of_single rfl i q
theorem rhs_axis0 (i : S512x1024.Idx) (q : dot_S512x256_S1024x256_S512x1024_1_1_0_0_n_n.contr.Idx) :
    (dot_S512x256_S1024x256_S512x1024_1_1_0_0_n_n.rhsIdx i q 0).val = (i 1).val := by
  unfold DotDims.rhsIdx
  rw [dif_neg (show ¬(0 : Fin S1024x256.rank) ∈ dot_S512x256_S1024x256_S512x1024_1_1_0_0_n_n.rhsBatch by decide), dif_pos (show (0 : Fin S1024x256.rank) ∈ dot_S512x256_S1024x256_S512x1024_1_1_0_0_n_n.rhsNonContracting by decide)]
  rfl
theorem rhs_axis1 (i : S512x1024.Idx) (q : dot_S512x256_S1024x256_S512x1024_1_1_0_0_n_n.contr.Idx) :
    (dot_S512x256_S1024x256_S512x1024_1_1_0_0_n_n.rhsIdx i q 1).val = (q ⟨0, by decide⟩).val :=
  dot_S512x256_S1024x256_S512x1024_1_1_0_0_n_n.rhsIdx_val_of_single rfl i q

/-- The product into the zero accumulator, read at `(p, q)`: row `p` of the left block against row `q` of the right
    block, summed over the 256 lanes both contract. -/
theorem rowsProduct_apply (l : FVec Ideal S512x256 .bf16) (r : FVec Ideal S1024x256 .bf16) (p : Fin 512) (q : Fin 1024) :
    matmul dot_S512x256_S1024x256_S512x1024_1_1_0_0_n_n none l r (constant (F := Ideal) S512x1024 .f32 0x00000000#32) (ix2 p q)
      = ∑ k : Fin 256, l (ix2 p k) * r (ix2 q k) := by
  refine (Ideal.matmul_constant_zero_apply dot_S512x256_S1024x256_S512x1024_1_1_0_0_n_n none l r (ix2 p q)).trans ?_
  rw [← Equiv.sum_comp (contrEquiv1 dot_S512x256_S1024x256_S512x1024_1_1_0_0_n_n 256 rfl rfl).symm]
  refine Finset.sum_congr rfl fun k _ => ?_
  have hk := contrEquiv1_symm_val dot_S512x256_S1024x256_S512x1024_1_1_0_0_n_n 256 rfl rfl k
  have el : dot_S512x256_S1024x256_S512x1024_1_1_0_0_n_n.lhsIdx (ix2 p q) ((contrEquiv1 dot_S512x256_S1024x256_S512x1024_1_1_0_0_n_n 256 rfl rfl).symm k) = ix2 p k := funext fun a => Fin.ext (by
    match a with
    | ⟨0, _⟩ => exact lhs_axis0 _ _
    | ⟨1, _⟩ => exact (lhs_axis1 _ _).trans hk)
  have er : dot_S512x256_S1024x256_S512x1024_1_1_0_0_n_n.rhsIdx (ix2 p q) ((contrEquiv1 dot_S512x256_S1024x256_S512x1024_1_1_0_0_n_n 256 rfl rfl).symm k) = ix2 q k := funext fun a => Fin.ext (by
    match a with
    | ⟨0, _⟩ => exact rhs_axis0 _ _
    | ⟨1, _⟩ => exact (rhs_axis1 _ _).trans hk)
  rw [el, er]

/-! ## The body's one stored value -/

/-- THE PAYLOAD AT AN INDEX: entry `(u, p, q)` of what the body stores is the cosine between row `p` of the query block
    and row `q` of the support block. The outer casts only add or drop the leading unit axis; the narrowing to 16 bits is
    the identity on the extended reals. -/
theorem payload_apply (sblk : Vec Ideal S1x1024x256 .f32) (xblk : Vec Ideal S1x512x256 .f32) (u : Fin 1) (p : Fin 512) (q : Fin 1024) :
    k0_pay1 (F := Ideal) sblk xblk (ix3 u p q)
      = cosine (fun k => xblk (ix3 (0 : Fin 1) p k)) (fun k => sblk (ix3 (0 : Fin 1) q k)) := by
  unfold k0_pay1
  refine (shapeCast_ab_1ab_apply _ _ u p q).trans ?_
  refine (rowsProduct_apply _ _ p q).trans ?_
  refine Finset.sum_congr rfl fun k _ => ?_
  refine congrArg₂ (· * ·) ?_ ?_
  · refine (scaled_apply (a := 512) _ _ _ _ _ _ p k).trans ?_
    exact congrArg (fun row => unitEntry row k) (funext fun k' => shapeCast_1ab_ab_apply _ _ p k')
  · refine (scaled_apply (a := 1024) _ _ _ _ _ _ q k).trans ?_
    exact congrArg (fun row => unitEntry row k) (funext fun k' => shapeCast_1ab_ab_apply _ _ q k')

end Cert.KernelIdeal.Payload

end
-- ==== Proof.KernelValue.lean ====
/-
  The kernel's result array is the specification.

  The grid has 32 × 2 points. At point `(b, h)` the body is handed all 1024 support rows of batch `b`, the 512 query
  rows `512·h … 512·h + 511` of batch `b`, and writes back the 512 × 1024 block of the result at batch `b`, rows
  `512·h …`. Its stored value at `(p, q)` is the cosine between query row `p` and support row `q` of the blocks
  (the payload lemma), and those rows ARE rows `512·h + p` and `q` of batch `b` of the whole arrays; so what the point
  writes back is its block of `sims`. The 64 blocks tile the result: the point covering `(b, t, j)` is `(b, t / 512)`.
-/
import proofs.«126760_j31963146616898_1_alg».proof.Proof.Gen.KernelIdeal.Value
import proofs.«126760_j31963146616898_1_alg».proof.Proof.KernelPayload

set_option maxRecDepth 16384

noncomputable section

namespace Cert.KernelIdeal.Whole

open Cert.KernelIdeal Cert.KernelIdeal.Gen Cert.KernelIdeal.Value Cert.KernelIdeal.Payload
open Idealize.ShloMosaic Idealize.ShloMosaic.TcCoe Idealize.SL.Sem Idealize.ShloMosaic.ValueIdx
open Idealize.ShloMosaic.Pipeline (Dat)
open Cert.Cosine

variable (m : (ℓ : Loc nD τ sig) → Buf (Elt Ideal) ℓ) (ρ : Dev nD → PrngReg)

/-! ## One point, over plain variables -/

/-- Row `p` of the half `h` of a batch's 1024 query rows is row `512·h + p`. -/
theorem row_lt {h : ℕ} (hh : h < 2) (p : Fin 512) : h * 512 + p.val < 1024 := by
  have := p.isLt
  omega

/-- A point whose blocks are: all support rows of batch `b`, and the query rows `512·h + p` of batch `b`. What it
    stores at `y = (u, p, q)` is the specification at any array index `i` with coordinates `(b, 512·h + p, q)`. -/
theorem point_value (s x : S32x1024x256.Idx → EReal) (sblk : Vec Ideal S1x1024x256 .f32) (xblk : Vec Ideal S1x512x256 .f32)
    (b h : ℕ) (hb : b < 32) (hh : h < 2)
    (hs : ∀ (r : Fin 1024) (k : Fin 256), sblk (ix3 (0 : Fin 1) r k) = s (ix3 (⟨b, hb⟩ : Fin 32) r k))
    (hx : ∀ (p : Fin 512) (k : Fin 256),
      xblk (ix3 (0 : Fin 1) p k) = x (ix3 (⟨b, hb⟩ : Fin 32) (⟨h * 512 + p.val, row_lt hh p⟩ : Fin 1024) k))
    (y : S1x512x1024.Idx) (i : S32x1024x1024.Idx)
    (h0 : (i 0).val = b) (h1 : (i 1).val = h * 512 + (y 1).val) (h2 : (i 2).val = (y 2).val) :
    k0_pay1 (F := Ideal) sblk xblk y = sims s x i := by
  obtain ⟨u, p, q, rfl⟩ : ∃ (u : Fin 1) (p : Fin 512) (q : Fin 1024), y = ix3 u p q := ⟨y 0, y 1, y 2, eq_ix3 y⟩
  obtain ⟨ib, it, ij, rfl⟩ : ∃ (ib : Fin 32) (it ij : Fin 1024), i = ix3 ib it ij := ⟨i 0, i 1, i 2, eq_ix3 i⟩
  have e0 : ib = ⟨b, hb⟩ := Fin.ext h0
  have e1 : it = ⟨h * 512 + p.val, row_lt hh p⟩ := Fin.ext h1
  have e2 : ij = q := Fin.ext h2
  subst e0 e1 e2
  refine (payload_apply sblk xblk u p ij).trans ?_
  rw [sims_ix3]
  exact congrArg₂ cosine (funext fun k => hx p k) (funext fun k => hs ij k)

/-! ## The index maps over the grid -/

theorem zero_offsets : (![0, 0, 0] : Fin 3 → Nat) = fun _ => 0 := funext fun a => by fin_cases a <;> rfl

/-- Decided over the 64 points: the support window sits at block `(b, 0, 0)`, the query window and the result window
    at block `(b, h, 0)`, with `b < 32` and `h < 2`. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) < 32 ∧ win0_2.index t (1 : Fin 3) < 2 ∧ win0_2.index t (2 : Fin 3) = 0 :=
  (by decide +kernel : ∀ t : Fin grid0.N, _)

/-- Every block `(b, h, 0)` of the result is some point's. -/
theorem index_onto : ∀ (b : Fin 32) (h : Fin 2), ∃ t : Fin cfg0.N, win0_2.index t = ![b.val, h.val, 0] :=
  (by decide +kernel : ∀ (b : Fin 32) (h : Fin 2), ∃ t : Fin grid0.N, win0_2.index t = ![b.val, h.val, 0])

/-! ## What a point writes back -/

/-- WHAT POINT `t` WRITES BACK is block `t` of `sims` of the two argument arrays. -/
theorem flushed_eq (c : Dev nD) (t : Fin cfg0.N) :
    (dats m 0 c).flushed 2 t
      = ((cfg0.win 2).blk t).view.read (Elt Ideal) (sims (V m c main_arg0) (V m c main_arg1)) := by
  rw [Value.flushed2]
  unfold out0_2
  rw [View.canon_unit_zero zero_offsets]
  simp only [View.ld_unit_zero (S := S1x1024x256) zero_offsets, View.ld_unit_zero (S := S1x512x256) zero_offsets]
  obtain ⟨a0, a1, a2, b0, b1, b2, c0, c1, c2⟩ := index_facts t
  funext y
  refine point_value (V m c main_arg0) (V m c main_arg1) (iblk m c 0 t) (iblk m c 1 t)
    (win0_2.index t (0 : Fin 3)) (win0_2.index t (1 : Fin 3)) c0 c1 ?_ ?_ y (((cfg0.win 2).blk t).view.emb y) ?_ ?_ ?_
  · intro r k
    show V m c main_arg0 (((cfg0.win 0).blk t).view.emb (ix3 (0 : Fin 1) r k)) = _
    refine congrArg (V m c main_arg0) (funext fun a => Fin.ext ?_)
    match a with
    | ⟨0, _⟩ => show win0_0.index t (0 : Fin 3) * 1 + 1 * 0 = win0_2.index t (0 : Fin 3); omega
    | ⟨1, _⟩ => show win0_0.index t (1 : Fin 3) * 1024 + 1 * r.val = r.val; omega
    | ⟨2, _⟩ => show win0_0.index t (2 : Fin 3) * 256 + 1 * k.val = k.val; omega
  · intro p k
    show V m c main_arg1 (((cfg0.win 1).blk t).view.emb (ix3 (0 : Fin 1) p k)) = _
    refine congrArg (V m c main_arg1) (funext fun a => Fin.ext ?_)
    match a with
    | ⟨0, _⟩ => show win0_1.index t (0 : Fin 3) * 1 + 1 * 0 = win0_2.index t (0 : Fin 3); omega
    | ⟨1, _⟩ => show win0_1.index t (1 : Fin 3) * 512 + 1 * p.val = win0_2.index t (1 : Fin 3) * 512 + p.val; omega
    | ⟨2, _⟩ => show win0_1.index t (2 : Fin 3) * 256 + 1 * k.val = k.val; omega
  · show win0_2.index t (0 : Fin 3) * 1 + 1 * (y 0).val = win0_2.index t (0 : Fin 3)
    have hy : (y 0).val < 1 := (y 0).isLt
    omega
  · show win0_2.index t (1 : Fin 3) * 512 + 1 * (y 1).val = win0_2.index t (1 : Fin 3) * 512 + (y 1).val
    omega
  · show win0_2.index t (2 : Fin 3) * 1024 + 1 * (y 2).val = (y 2).val
    omega

/-! ## The blocks tile the result -/

/-- An index of the result is in point `t`'s block iff each coordinate is in the block's range on its axis. -/
theorem mem_block (t : Fin cfg0.N) (i : S32x1024x1024.Idx) :
    i ∈ ((cfg0.win 2).blk t).view.set
      ↔ ∀ a : Fin 3, win0_2.index t a * S1x512x1024.size a ≤ (i a).val
          ∧ (i a).val < win0_2.index t a * S1x512x1024.size a + S1x512x1024.size a := by
  show i ∈ ((View.whole main_v0).slice (win0_2.rect t)).set ↔ _
  rw [View.set_slice_whole, Rect.mem_set_unit]
  exact Iff.rfl

/-- Every index `(b, t, j)` of the result lies in the block of the point at `(b, t / 512)`, which writes back. -/
theorem covered (i : S32x1024x1024.Idx) :
    ∃ t : Fin cfg0.N, (cfg0.win 2).flush t = true ∧ i ∈ ((cfg0.win 2).blk t).view.set := by
  have hi0 : (i 0).val < 32 := (i 0).isLt
  have hi1 : (i 1).val < 1024 := (i 1).isLt
  have hi2 : (i 2).val < 1024 := (i 2).isLt
  obtain ⟨t, ht⟩ := index_onto ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 1024 ≤ (i 2).val ∧ (i 2).val < win0_2.index t (2 : Fin 3) * 1024 + 1024
    omega

/-! ## The array after the run -/

/-- THE RESULT ARRAY after the run is `sims` of the two argument arrays: every point writes back its block of it, and the
    blocks cover the array. -/
theorem final (c : Dev nD) :
    (dats m 0 c).arrAt 2 cfg0.N
      = sims (m ((c : Thread nD τ).loc main_arg0)) (m ((c : Thread nD τ).loc main_arg1)) :=
  (dats m 0 c).arrAt_eq_of_cover 2 (sims (V m c main_arg0) (V m c main_arg1)) (fun t _ => flushed_eq m c t) covered

/-- The kernel's run with its result named: every fair execution ends with the result array at `sims` of the
    arguments, the arguments unchanged. -/
theorem run : θ_run defs (onTc (τ := τ) (main (F := Ideal))) ⟨m, fun _ => 0, ρ⟩ fun r => ∀ c : Dev nD,
      r.2.mem ((c : Thread nD τ).loc main_v0)
        = sims (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceValue.lean ====
/-
  The reference's result is the specification.

  The reference scales the rows of the two whole arrays (squares summed over the last axis from a zero start, the sum
  re-laid with its axis kept, rooted, floored by the splat of `ε`, broadcast back over the 256 entries, the quotient)
  and contracts the last axes of the two scaled arrays batch by batch. Read at `(b, t, j)` through the stage-by-stage
  index lemmas of its run, that is `∑ k, x̂ (b, t, k) · ŝ (b, j, k)`: the cosine between query row `t` and support row
  `j` of batch `b`. The only arithmetic used is `0 + z = z` for the reduction's zero start.
-/
import proofs.«126760_j31963146616898_1_alg».proof.Proof.Gen.ReferenceIdeal.Read
import proofs.«126760_j31963146616898_1_alg».proof.Proof.CosineSpec

noncomputable section

namespace Cert.ReferenceIdeal.RefValue

open Cert.ReferenceIdeal Cert.ReferenceIdeal.Gen Cert.ReferenceIdeal.Read Idealize.ShloMosaic Idealize.ShloMosaic.ValueIdx
open Cert.Cosine

/-! ## The composed index maps, by coordinates -/

theorem idx_querySq (b : Fin 32) (r : Fin 1024) (k k' : Fin 256) :
    idx_main_v1 (idx_main_v2 (idx_main_v6 (ix3 b r k))) k' = ix3 b r k' :=
  funext fun a => Fin.ext (by match a with | ⟨0, _⟩ => rfl | ⟨1, _⟩ => rfl | ⟨2, _⟩ => rfl)

theorem idx_supportSq (b : Fin 32) (r : Fin 1024) (k k' : Fin 256) :
    idx_main_v9 (idx_main_v10 (idx_main_v14 (ix3 b r k))) k' = ix3 b r k' :=
  funext fun a => Fin.ext (by match a with | ⟨0, _⟩ => rfl | ⟨1, _⟩ => rfl | ⟨2, _⟩ => rfl)

theorem idx_left (b : Fin 32) (t j : Fin 1024) (k : Fin 256) : lidx_main_v16 (ix3 b t j) k = ix3 b t k :=
  funext fun a => Fin.ext (by match a with | ⟨0, _⟩ => rfl | ⟨1, _⟩ => rfl | ⟨2, _⟩ => rfl)

theorem idx_right (b : Fin 32) (t j : Fin 1024) (k : Fin 256) : ridx_main_v16 (ix3 b t j) k = ix3 b j k :=
  funext fun a => Fin.ext (by match a with | ⟨0, _⟩ => rfl | ⟨1, _⟩ => rfl | ⟨2, _⟩ => rfl)

/-! ## The scaled rows -/

/-- The scaled query array at `(b, r, k)`: entry `k` of query row `r` of batch `b` over that row's clamped norm. -/
theorem queryScaled_apply (x1 : (⟨S32x1024x256, .f32⟩ : BufTy).Contents (Elt Ideal)) (b : Fin 32) (r : Fin 1024) (k : Fin 256) :
    val_main_v7 (F := Ideal) x1 (ix3 b r k) = unitEntry (rowOf x1 b r) k := by
  refine congrArg (Ideal.div (x1 (ix3 b r k))) ?_
  refine (val_main_v6_apply x1 _).trans ?_
  refine congrArg₂ max ?_ ((val_main_v4_apply _).trans rfl)
  refine congrArg Ideal.sqrt ?_
  refine (val_main_v2_apply x1 _).trans ?_
  refine (val_main_v1_apply x1 _).trans ?_
  refine (congrArg (· + _) Ideal.ofBits_zero_f32).trans ((zero_add _).trans ?_)
  exact Finset.sum_congr rfl fun k' _ => congrArg (fun i => x1 i * x1 i) (idx_querySq b r k k')

/-- The scaled support array at `(b, r, k)`, likewise. -/
theorem supportScaled_apply (x0 : (⟨S32x1024x256, .f32⟩ : BufTy).Contents (Elt Ideal)) (b : Fin 32) (r : Fin 1024) (k : Fin 256) :
    val_main_v15 (F := Ideal) x0 (ix3 b r k) = unitEntry (rowOf x0 b r) k := by
  refine congrArg (Ideal.div (x0 (ix3 b r k))) ?_
  refine (val_main_v14_apply x0 _).trans ?_
  refine congrArg₂ max ?_ ((val_main_v12_apply _).trans rfl)
  refine congrArg Ideal.sqrt ?_
  refine (val_main_v10_apply x0 _).trans ?_
  refine (val_main_v9_apply x0 _).trans ?_
  refine (congrArg (· + _) Ideal.ofBits_zero_f32).trans ((zero_add _).trans ?_)
  exact Finset.sum_congr rfl fun k' _ => congrArg (fun i => x0 i * x0 i) (idx_supportSq b r k k')

/-! ## The result -/

/-- THE REFERENCE IS THE SPECIFICATION: its last stage, as a function of the two argument arrays, is `sims`. -/
theorem reference_eq (x0 x1 : (⟨S32x1024x256, .f32⟩ : BufTy).Contents (Elt Ideal)) :
    val_main_v16 (F := Ideal) x0 x1 = sims x0 x1 := by
  funext i
  obtain ⟨b, t, j, rfl⟩ : ∃ (b : Fin 32) (t j : Fin 1024), i = ix3 b t j := ⟨i 0, i 1, i 2, eq_ix3 i⟩
  refine (val_main_v16_apply x0 x1 _).trans ?_
  show _ = ∑ k : Fin 256, unitEntry (rowOf x1 b t) k * unitEntry (rowOf x0 b j) k
  refine Finset.sum_congr rfl fun k _ => ?_
  rw [idx_left, idx_right]
  exact congrArg₂ (· * ·) (queryScaled_apply x1 b t k) (supportScaled_apply x0 b j k)

end Cert.ReferenceIdeal.RefValue

end
-- ==== Proof.lean ====
/-
  Pairwise cosine similarity: the kernel against its reference, on the extended reals.

  For support rows `s` and query rows `x` (32 batches, 1024 rows, 256 entries) both programs compute, at `(b, t, j)`,
      ∑ k, (x (b,t,k) / max (√(∑ k', x (b,t,k')²)) ε) · (s (b,j,k) / max (√(∑ k', s (b,j,k')²)) ε),
  the cosine of the angle between query row `t` and support row `j` of batch `b`, each row scaled by its Euclidean norm
  clamped below by `ε` (`Cosine.sims`). The reference does it on the whole arrays; the kernel does it on a grid of
  32 × 2 points, each holding one batch's support rows and half of its query rows, and the blocks the points write back
  tile the result. The two sides apply the same operations in the same order to the same entries — the kernel's
  narrowing of the scaled rows to 16 bits is the identity on the extended reals, its product into a zero accumulator
  and its lane sums are the plain finite sums — so no algebraic law joins them beyond `0 + z = z`, and the finiteness
  of the inputs is never used.

  The three frames: the kernel's two are its generated frame at each instance; the reference has no kernel and its
  frame is its generated run with the result dropped. The idealization rewrote no operation, so `preserves` is `True`.
-/
import proofs.«126760_j31963146616898_1_alg».proof.Defs
import proofs.«126760_j31963146616898_1_alg».proof.Proof.Gen.Kernel
import proofs.«126760_j31963146616898_1_alg».proof.Proof.Gen.Kernel.Skeleton
import proofs.«126760_j31963146616898_1_alg».proof.Proof.Gen.Kernel.Launch
import proofs.«126760_j31963146616898_1_alg».proof.Proof.Gen.Kernel.Points
import proofs.«126760_j31963146616898_1_alg».proof.Proof.Gen.Kernel.Frame
import proofs.«126760_j31963146616898_1_alg».proof.Proof.Gen.KernelIdeal
import proofs.«126760_j31963146616898_1_alg».proof.Proof.Gen.KernelIdeal.Skeleton
import proofs.«126760_j31963146616898_1_alg».proof.Proof.Gen.KernelIdeal.Launch
import proofs.«126760_j31963146616898_1_alg».proof.Proof.Gen.KernelIdeal.Points
import proofs.«126760_j31963146616898_1_alg».proof.Proof.Gen.KernelIdeal.Frame
import proofs.«126760_j31963146616898_1_alg».proof.Proof.Gen.ReferenceIdeal
import proofs.«126760_j31963146616898_1_alg».proof.Proof.Gen.Pre_finite_inputs
import proofs.«126760_j31963146616898_1_alg».proof.Proof.Gen.KernelIdeal.Value
import proofs.«126760_j31963146616898_1_alg».proof.Proof.Gen.ReferenceIdeal.Run
import proofs.«126760_j31963146616898_1_alg».proof.Proof.Gen.ReferenceIdeal.Read
import proofs.«126760_j31963146616898_1_alg».proof.Proof.KernelValue
import proofs.«126760_j31963146616898_1_alg».proof.Proof.ReferenceValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its arguments unchanged: its frame is the run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the result array at `Cosine.sims` of the
    arguments: the kernel's by its blocks (`Whole.run`), the reference's because its last stage is that function
    (`RefValue.reference_eq`). -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
